-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_v13 main_v16
-- ==== Kernel.lean ====
abbrev S16384x1024 : Shape := ⟨2, ![16384, 1024]⟩
abbrev S1024x1024 : Shape := ⟨2, ![1024, 1024]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  natLt_1_32 : 1 < 32
  broadcasts_S512x1_S512x1024 : S512x1.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1x16384x1024 : Shape := ⟨3, ![1, 16384, 1024]⟩
abbrev S4x16384x1024 : Shape := ⟨3, ![4, 16384, 1024]⟩
abbrev S_ : Shape := ⟨0, ![]⟩
abbrev S4x16384 : Shape := ⟨2, ![4, 16384]⟩
abbrev S16384 : Shape := ⟨1, ![16384]⟩
abbrev S16384x1 : Shape := ⟨2, ![16384, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1x16384x1024, .f32⟩
  | .hbm, ⟨6, _⟩ => ⟨S1x16384x1024, .f32⟩
  | .hbm, ⟨7, _⟩ => ⟨S1x16384x1024, .f32⟩
  | .hbm, ⟨8, _⟩ => ⟨S1x16384x1024, .f32⟩
  | .hbm, ⟨9, _⟩ => ⟨S4x16384x1024, .f32⟩
  | .hbm, ⟨10, _⟩ => ⟨S4x16384x1024, .f32⟩
  | .hbm, ⟨11, _⟩ => ⟨S_, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S1x16384x1024, .f32⟩
  | .hbm, ⟨17, _⟩ => ⟨S4x16384x1024, .f32⟩
  | .hbm, ⟨18, _⟩ => ⟨S4x16384x1024, .f32⟩
  | .hbm, ⟨19, _⟩ => ⟨S4x16384x1024, .f32⟩
  | .hbm, ⟨20, _⟩ => ⟨S_, .f32⟩
  | .hbm, ⟨21, _⟩ => ⟨S16384x1024, .f32⟩
  | .hbm, ⟨22, _⟩ => ⟨S1x16384x1024, .f32⟩
  | .hbm, ⟨23, _⟩ => ⟨S4x16384x1024, .f32⟩
  | .hbm, ⟨24, _⟩ => ⟨S4x16384x1024, .f32⟩
  | .hbm, ⟨25, _⟩ => ⟨S4x16384x1024, .f32⟩
  | .hbm, ⟨26, _⟩ => ⟨S_, .f32⟩
  | .hbm, ⟨27, _⟩ => ⟨S16384x1024, .f32⟩
  | .hbm, ⟨28, _⟩ => ⟨S_, .f32⟩
  | .hbm, ⟨29, _⟩ => ⟨S4x16384, .f32⟩
  | .hbm, ⟨30, _⟩ => ⟨S_, .f32⟩
  | .hbm, ⟨31, _⟩ => ⟨S4x16384, .f32⟩
  | .hbm, ⟨32, _⟩ => ⟨S4x16384, .i1⟩
  | .hbm, ⟨33, _⟩ => ⟨S4x16384, .i32⟩
  | .hbm, ⟨34, _⟩ => ⟨S_, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .f32⟩
  | .hbm, ⟨47, _⟩ => ⟨S16384x1, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S16384x1024_S1x16384x1024_1_2 : S16384x1024.BroadcastsInDim S1x16384x1024 (![1, 2] : Fin 2 → Fin S1x16384x1024.rank)
  concatenates_S1x16384x1024_S1x16384x1024_S1x16384x1024_S1x16384x1024_S4x16384x1024_d0 : Shape.Concatenates [S1x16384x1024, S1x16384x1024, S1x16384x1024, S1x16384x1024] S4x16384x1024 0
  reducesTo_S4x16384x1024_S16384x1024_d0 : S4x16384x1024.ReducesTo [0] S16384x1024
  h_S_ : 0 < S_.numel
  bcast_S_S16384x1024 : S_.BroadcastsInDim S16384x1024 (![] : Fin 0 → Fin S16384x1024.rank)
  bcast_S1x16384x1024_S4x16384x1024_0_1_2 : S1x16384x1024.BroadcastsInDim S4x16384x1024 (![0, 1, 2] : Fin 3 → Fin S4x16384x1024.rank)
  reducesTo_S4x16384x1024_S4x16384_d2 : S4x16384x1024.ReducesTo [2] S4x16384
  bcast_S_S4x16384 : S_.BroadcastsInDim S4x16384 (![] : Fin 0 → Fin S4x16384.rank)
  natLt_1_32 : 1 < 32
  reducesTo_S4x16384_S16384_d0 : S4x16384.ReducesTo [0] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  dot_S4x16384x1024_S1024x1024_S4x16384x1024_2_1_01_0_n_n_wf : DotDims.WF S4x16384x1024 S1024x1024 S4x16384x1024 [2] [1] [0, 1] [0] [] []

variable [Facts₀]

def dot_S4x16384x1024_S1024x1024_S4x16384x1024_2_1_01_0_n_n : DotDims S4x16384x1024 S1024x1024 S4x16384x1024 where
  lhsContracting := [2]
  rhsContracting := [1]
  lhsNonContracting := [0, 1]
  rhsNonContracting := [0]
  lhsBatch := []
  rhsBatch := []
  wf := dot_S4x16384x1024_S1024x1024_S4x16384x1024_2_1_01_0_n_n_wf

class Facts : Prop extends Facts₀ where

variable [Facts]
-- ==== Proof.OnlineLaw.lean ====
/-
  The algebra that joins the two programs, one output element at a time.

  At an output element both programs see four values x₀ … x₃ (the four inputs at that element), four scores
  s₀ … s₃ (the element's row of each input against the element's row of the weights), and the four row sums of
  the inputs. The kernel keeps a running shift M, a running denominator l and a running numerator c:
      M' = max M s,   l' = exp (M - M') · l + exp (s - M'),   c' = exp (M - M') · c + x · exp (s - M'),
  started from M = -∞, l = c = 0, and answers c / l. The reference shifts every score by ONE number M, forms
  eₘ = exp (sₘ - M), D = ∑ eₘ and answers ∑ xₘ · (eₘ / D).

  Over the reals the two are the same number WHATEVER the shifts are (they need not be maxima): with
  aₘ = exp sₘ and mⱼ = exp Mⱼ every exp (u - v) is a quotient of positive numbers, the kernel's numerator and
  denominator are (∑ xₘ aₘ) / m₄ and (∑ aₘ) / m₄, the reference's quotients are aₘ / ∑ a, and both answers are
  (∑ xₘ aₘ) / (∑ aₘ). Both programs then multiply by the same factor, read off the four row sums.

  On the extended reals the step from the reals needs every x and s to be a real number (finite inputs give that):
  the first step's exp (-∞ - M₁) only ever multiplies the zero the accumulators start from.
-/
import Idealize.ShloMosaic.PureOps.Ideal
import Idealize.ShloMosaic.PureOps.Ideal.Laws
import Mathlib.Analysis.SpecialFunctions.Exp
import Mathlib.Tactic.FieldSimp
import Mathlib.Tactic.Ring
import Mathlib.Tactic.Positivity

noncomputable section

namespace Cert.Fusion

open Idealize.ShloMosaic

/-! ## Over the reals -/

/-- The identity in the positive numbers aₘ = exp sₘ, mⱼ = exp Mⱼ, mm = exp M. -/
theorem ratio_of_shifts (a0 a1 a2 a3 m1 m2 m3 m4 mm x0 x1 x2 x3 : ℝ)
    (ha0 : 0 < a0) (ha1 : 0 < a1) (ha2 : 0 < a2) (ha3 : 0 < a3)
    (hm1 : 0 < m1) (hm2 : 0 < m2) (hm3 : 0 < m3) (hm4 : 0 < m4) (hmm : 0 < mm) :
    (m3 / m4 * (m2 / m3 * (m1 / m2 * (x0 * (a0 / m1)) + x1 * (a1 / m2)) + x2 * (a2 / m3)) + x3 * (a3 / m4))
        * (1 / (m3 / m4 * (m2 / m3 * (m1 / m2 * (a0 / m1) + a1 / m2) + a2 / m3) + a3 / m4))
      = x0 * (a0 / mm * (1 / (a0 / mm + a1 / mm + a2 / mm + a3 / mm)))
        + x1 * (a1 / mm * (1 / (a0 / mm + a1 / mm + a2 / mm + a3 / mm)))
        + x2 * (a2 / mm * (1 / (a0 / mm + a1 / mm + a2 / mm + a3 / mm)))
        + x3 * (a3 / mm * (1 / (a0 / mm + a1 / mm + a2 / mm + a3 / mm))) := by
  have hd : a0 / mm + a1 / mm + a2 / mm + a3 / mm ≠ 0 := by positivity
  have hl : m3 / m4 * (m2 / m3 * (m1 / m2 * (a0 / m1) + a1 / m2) + a2 / m3) + a3 / m4 ≠ 0 := by positivity
  have hs : a0 + a1 + a2 + a3 ≠ 0 := by positivity
  have h1 := hm1.ne'
  have h2 := hm2.ne'
  have h3 := hm3.ne'
  have h4 := hm4.ne'
  have h5 := hmm.ne'
  field_simp

/-- The same with the exponentials written out. -/
theorem ratio_of_exp (x0 x1 x2 x3 s0 s1 s2 s3 M1 M2 M3 M4 M : ℝ) :
    (Real.exp (M3 - M4) * (Real.exp (M2 - M3) * (Real.exp (M1 - M2) * (x0 * Real.exp (s0 - M1)) + x1 * Real.exp (s1 - M2))
          + x2 * Real.exp (s2 - M3)) + x3 * Real.exp (s3 - M4))
        * (1 / (Real.exp (M3 - M4) * (Real.exp (M2 - M3) * (Real.exp (M1 - M2) * Real.exp (s0 - M1) + Real.exp (s1 - M2))
          + Real.exp (s2 - M3)) + Real.exp (s3 - M4)))
      = x0 * (Real.exp (s0 - M) * (1 / (Real.exp (s0 - M) + Real.exp (s1 - M) + Real.exp (s2 - M) + Real.exp (s3 - M))))
        + x1 * (Real.exp (s1 - M) * (1 / (Real.exp (s0 - M) + Real.exp (s1 - M) + Real.exp (s2 - M) + Real.exp (s3 - M))))
        + x2 * (Real.exp (s2 - M) * (1 / (Real.exp (s0 - M) + Real.exp (s1 - M) + Real.exp (s2 - M) + Real.exp (s3 - M))))
        + x3 * (Real.exp (s3 - M) * (1 / (Real.exp (s0 - M) + Real.exp (s1 - M) + Real.exp (s2 - M) + Real.exp (s3 - M)))) := by
  simp only [Real.exp_sub]
  exact ratio_of_shifts _ _ _ _ _ _ _ _ _ x0 x1 x2 x3 (Real.exp_pos _) (Real.exp_pos _) (Real.exp_pos _) (Real.exp_pos _)
    (Real.exp_pos _) (Real.exp_pos _) (Real.exp_pos _) (Real.exp_pos _) (Real.exp_pos _)

/-! ## On the extended reals -/

/-- The pattern of -∞ is the bottom of the extended reals. -/
theorem ofBits_negInf : Ideal.ofBits .f32 0xFF800000#32 = (⊥ : EReal) := by
  simp [Ideal.ofBits, Ideal.ieee]

/-- The larger of two reals is the larger of them as extended reals: the inclusion is monotone. -/
theorem max_coe (a b : ℝ) : max (a : EReal) (b : EReal) = ((max a b : ℝ) : EReal) :=
  (EReal.coe_strictMono.monotone.map_max).symm

/-- What the kernel's four steps leave: numerator over denominator. -/
def onlineFused (x0 x1 x2 x3 s0 s1 s2 s3 : EReal) : EReal :=
  let z : EReal := Ideal.ofBits .f32 0x00000000#32
  let b : EReal := Ideal.ofBits .f32 0xFF800000#32
  let M1 := max b s0
  let l1 := Ideal.exp (b - M1) * z + Ideal.exp (s0 - M1)
  let c1 := Ideal.exp (b - M1) * z + x0 * Ideal.exp (s0 - M1)
  let M2 := max M1 s1
  let l2 := Ideal.exp (M1 - M2) * l1 + Ideal.exp (s1 - M2)
  let c2 := Ideal.exp (M1 - M2) * c1 + x1 * Ideal.exp (s1 - M2)
  let M3 := max M2 s2
  let l3 := Ideal.exp (M2 - M3) * l2 + Ideal.exp (s2 - M3)
  let c3 := Ideal.exp (M2 - M3) * c2 + x2 * Ideal.exp (s2 - M3)
  let M4 := max M3 s3
  let l4 := Ideal.exp (M3 - M4) * l3 + Ideal.exp (s3 - M4)
  let c4 := Ideal.exp (M3 - M4) * c3 + x3 * Ideal.exp (s3 - M4)
  Ideal.div c4 l4

/-- What the reference forms with the one shift M. -/
def shiftedFused (M x0 x1 x2 x3 s0 s1 s2 s3 : EReal) : EReal :=
  let z : EReal := Ideal.ofBits .f32 0x00000000#32
  let D := z + (Ideal.exp (s0 - M) + Ideal.exp (s1 - M) + Ideal.exp (s2 - M) + Ideal.exp (s3 - M))
  z + (x0 * Ideal.div (Ideal.exp (s0 - M)) D + x1 * Ideal.div (Ideal.exp (s1 - M)) D
    + x2 * Ideal.div (Ideal.exp (s2 - M)) D + x3 * Ideal.div (Ideal.exp (s3 - M)) D)

/-- On real values and real scores the kernel's answer is the reference's, for any real shift. -/
theorem onlineFused_eq_shiftedFused (x0 x1 x2 x3 s0 s1 s2 s3 M : ℝ) :
    onlineFused (x0 : EReal) x1 x2 x3 s0 s1 s2 s3 = shiftedFused (M : EReal) x0 x1 x2 x3 s0 s1 s2 s3 := by
  have hD : Real.exp (s0 - M) + Real.exp (s1 - M) + Real.exp (s2 - M) + Real.exp (s3 - M) ≠ 0 := by positivity
  have hL : Real.exp (max (max s0 s1) s2 - max (max (max s0 s1) s2) s3)
      * (Real.exp (max s0 s1 - max (max s0 s1) s2) * (Real.exp (s0 - max s0 s1) * Real.exp (s0 - s0) + Real.exp (s1 - max s0 s1))
        + Real.exp (s2 - max (max s0 s1) s2)) + Real.exp (s3 - max (max (max s0 s1) s2) s3) ≠ 0 := by positivity
  unfold onlineFused shiftedFused
  simp only [Ideal.ofBits_zero_f32, ofBits_negInf, mul_zero, zero_add, max_eq_right (bot_le : (⊥ : EReal) ≤ _)]
  simp only [max_coe, ← EReal.coe_sub, Ideal.exp_coe, ← EReal.coe_mul, ← EReal.coe_add]
  rw [Ideal.div_coe hL, Ideal.div_coe hD, Ideal.div_coe hD, Ideal.div_coe hD, Ideal.div_coe hD]
  simp only [← EReal.coe_mul, ← EReal.coe_add]
  exact congrArg _ (ratio_of_exp x0 x1 x2 x3 s0 s1 s2 s3 s0 (max s0 s1) (max (max s0 s1) s2) (max (max (max s0 s1) s2) s3) M)

/-! ## The common factor -/

/-- One input's mark: 1 when its row sum is exactly zero, as a 32-bit word. -/
def zeroMark (r : EReal) : BitVec 32 :=
  (FloatOps.cmpf (F := Ideal) (φ := .f32) .oeq r (Scalar.ofBits (F := Ideal) .f32 0x00000000#32)).setWidth 32

/-- How many of the four row sums are exactly zero. -/
def zeroCount (r0 r1 r2 r3 : EReal) : BitVec 32 :=
  IntOp.addi (IntOp.addi (IntOp.addi (IntOp.addi 0#32 (zeroMark r0)) (zeroMark r1)) (zeroMark r2)) (zeroMark r3)

/-- The factor both programs multiply by: the count plus one when the count is positive, else one. -/
def rowFactor (r0 r1 r2 r3 : EReal) : EReal :=
  FloatOps.sitofp (F := Ideal) .f32
    (Scalar.select (IntOp.cmpi .sgt (zeroCount r0 r1 r2 r3) 0#32) (IntOp.addi (zeroCount r0 r1 r2 r3) 1#32) 1#32)

end Cert.Fusion

end
-- ==== Proof.KernelPoint.lean ====
/-
  One element of the kernel's block.

  At a grid point the body loads a block of 512 rows from each of the four inputs and the whole transposed weights,
  and stores one block. This module reads that stored block at an element (p, q), for ARBITRARY vectors in place of
  the loads: the element is
      (numerator / denominator of the four-step recurrence, at the four loads' elements (p, q) and the four
       products  ∑ₖ load (p, k) · weights (k, q))  ·  (the factor read off the four row sums  ∑ₖ load (p, k)).
  Every operation of the body is elementwise but three: the matrix product (read as the textbook sum over the
  contracted axis), the sum over the lanes of a row, and the re-laying of the per-row factor across the lanes.
-/
import proofs.«417276_j38173669327601_3_alg».proof.Proof.KernelValue
import proofs.«417276_j38173669327601_3_alg».proof.Proof.OnlineLaw
import Idealize.ShloMosaic.Lib.ValueIdx
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.TcCoe Idealize.SL.Sem
open Idealize.ShloMosaic.ValueIdx

/-! ## The matrix product of a block of rows with the weights -/

/-- The left operand is read at the output's row, -/
theorem lhs_axis0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- and at the contracted coordinate along its lanes; -/
theorem lhs_axis1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the contracted coordinate along its rows, -/
theorem rhs_axis0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- and at the output's column. -/
theorem rhs_axis1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Row p of a block against column q of the weights. -/
def tileDot (A : S512x1024.Idx → EReal) (B : S1024x1024.Idx → EReal) (p : Fin 512) (q : Fin 1024) : EReal :=
  ∑ k : Fin 1024, A (ix2 p k) * B (ix2 k q)

/-- The sum of row p of a block. -/
def tileRow (A : S512x1024.Idx → EReal) (p : Fin 512) : EReal :=
  ∑ k : Fin 1024, A (ix2 p k)

/-- The product into a zero accumulator, at an element: the sum over the contracted axis. -/
theorem matmul_at (A : FVec Ideal S512x1024 .bf16) (B : FVec Ideal S1024x1024 .bf16) (p : Fin 512) (q : Fin 1024) :
    matmul (F := Ideal) (φ₁ := .bf16) (φ₂ := .bf16) dot_S512x1024_S1024x1024_S512x1024_1_0_0_1_n_n none A B (constant (F := Ideal) S512x1024 .f32 0x00000000#32) (ix2 p q) = tileDot A B p q := by
  refine (Ideal.matmul_constant_zero_apply dot_S512x1024_S1024x1024_S512x1024_1_0_0_1_n_n none A B (ix2 p q)).trans ?_
  unfold tileDot
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The sum over the lanes of a block, at row p. -/
theorem laneSum_at (A : FVec Ideal S512x1024 .f32) (p : Fin 512) (j : S512.Idx) (hj : j = ix1 p) :
    multiReduction (F := Ideal) (φ := .f32) .add [1] S512 A 0x00000000#32 reduces_S512x1024_S512 (.inl rfl) rfl j = tileRow A p := by
  subst hj
  refine (Ideal.multiReduction_add_single A _ reduces_S512x1024_S512 (.inl rfl) rfl (ix1 p)).trans ?_
  unfold tileRow
  refine Finset.sum_congr rfl fun k _ => ?_
  exact congrArg A (funext fun a => Fin.ext (by match a with | ⟨0, _⟩ => rfl | ⟨1, _⟩ => rfl))

/-! ## The stored block at an element -/

/-- The block the body stores, as the generated value leg names it for arbitrary vectors in place of the loads, at
    element (p, q): the recurrence's quotient at the loads' elements and their products with the weights, times the
    factor of the loads' row sums. -/
theorem block_at (P0 : Vec Ideal S1024x1024 .bf16) (P1 P2 P3 P4 : Vec Ideal S512x1024 .f32) (p : Fin 512) (q : Fin 1024) :
    Cert.KernelIdeal.ValueP.E5 P0 P1 P2 P3 P4 (ix2 p q)
      = Cert.Fusion.onlineFused (P1 (ix2 p q)) (P2 (ix2 p q)) (P3 (ix2 p q)) (P4 (ix2 p q))
            (tileDot P1 P0 p q) (tileDot P2 P0 p q) (tileDot P3 P0 p q) (tileDot P4 P0 p q)
          * Cert.Fusion.rowFactor (tileRow P1 p) (tileRow P2 p) (tileRow P3 p) (tileRow P4 p) := by
  have hW : shapeCast S1024x1024 P0 shapeCasts_S1024x1024_S1024x1024 = P0 := shapeCast_self _ _
  have d1 : k0_pay4 P0 P1 (ix2 p q) = tileDot P1 P0 p q := by
    unfold k0_pay4 k0_pay2; rw [hW]; exact matmul_at _ _ p q
  have d2 : k0_pay9 P0 P2 (ix2 p q) = tileDot P2 P0 p q := by
    unfold k0_pay9 k0_pay2; rw [hW]; exact matmul_at _ _ p q
  have d3 : matmul (F := Ideal) (φ₁ := .bf16) (φ₂ := .bf16) dot_S512x1024_S1024x1024_S512x1024_1_0_0_1_n_n none (truncf .bf16 P3 bitsLt_bf16_f32) P0 (constant (F := Ideal) S512x1024 .f32 0x00000000#32) (ix2 p q) = tileDot P3 P0 p q :=
    matmul_at _ _ p q
  have d4 : matmul (F := Ideal) (φ₁ := .bf16) (φ₂ := .bf16) dot_S512x1024_S1024x1024_S512x1024_1_0_0_1_n_n none (truncf .bf16 P4 bitsLt_bf16_f32) P0 (constant (F := Ideal) S512x1024 .f32 0x00000000#32) (ix2 p q) = tileDot P4 P0 p q :=
    matmul_at _ _ p q
  have hy : Cert.KernelIdeal.ValueP.ix5_0 (ix2 p q) = ix2 p q := funext fun a => by
    match a with
    | ⟨0, _⟩ => rfl
    | ⟨1, _⟩ => rfl
  show (k0_pay17 _ _ _ _ P3 P4 (Cert.KernelIdeal.ValueP.ix5_0 (ix2 p q))) * _ = _
  rw [hy, hW]
  refine congrArg₂ (· * ·) ?_ ?_
  · -- every other operation of the quotient is elementwise
    refine Eq.trans (b := Cert.Fusion.onlineFused (P1 (ix2 p q)) (P2 (ix2 p q)) (P3 (ix2 p q)) (P4 (ix2 p q))
      (k0_pay4 P0 P1 (ix2 p q)) (k0_pay9 P0 P2 (ix2 p q))
      (matmul (F := Ideal) (φ₁ := .bf16) (φ₂ := .bf16) dot_S512x1024_S1024x1024_S512x1024_1_0_0_1_n_n none (truncf .bf16 P3 bitsLt_bf16_f32) P0 (constant (F := Ideal) S512x1024 .f32 0x00000000#32) (ix2 p q))
      (matmul (F := Ideal) (φ₁ := .bf16) (φ₂ := .bf16) dot_S512x1024_S1024x1024_S512x1024_1_0_0_1_n_n none (truncf .bf16 P4 bitsLt_bf16_f32) P0 (constant (F := Ideal) S512x1024 .f32 0x00000000#32) (ix2 p q))) rfl ?_
    rw [d1, d2, d3, d4]
  · unfold Cert.Fusion.rowFactor Cert.Fusion.zeroCount Cert.Fusion.zeroMark
    rw [laneSum_at P1 p (Cert.KernelIdeal.ValueP.ix5_1 (ix2 p q)) (funext fun a => by match a with | ⟨0, _⟩ => rfl),
      laneSum_at P2 p (Cert.KernelIdeal.ValueP.ix5_2 (ix2 p q)) (funext fun a => by match a with | ⟨0, _⟩ => rfl),
      laneSum_at P3 p (Cert.KernelIdeal.ValueP.ix5_3 (ix2 p q)) (funext fun a => by match a with | ⟨0, _⟩ => rfl),
      laneSum_at P4 p (Cert.KernelIdeal.ValueP.ix5_4 (ix2 p q)) (funext fun a => by match a with | ⟨0, _⟩ => rfl)]

end Cert.KernelIdeal.Point

end
-- ==== Proof.FusionSpec.lean ====
/-
  The result array as ONE function of the five argument arrays, element by element.

  For four arrays x₀ … x₃ of 16384 rows by 1024 columns and weights w of 1024 by 1024, element (b, k) of the result is
      (the four-step recurrence's quotient at the values xₘ(b, k) and the scores sₘ(b, k) = ∑ₗ xₘ(b, l) · w(k, l))
        · (the factor read off the four row sums ∑ₗ xₘ(b, l)).
  The scores are row b of xₘ against ROW k of w: the product with the transposed weights.
-/
import proofs.«417276_j38173669327601_3_alg».proof.Proof.OnlineLaw
import Idealize.ShloMosaic.Lib.ValueIdx

noncomputable section

namespace Cert.Fusion

open Idealize.ShloMosaic Idealize.ShloMosaic.ValueIdx

/-- The shape of an input and of the result: 16384 rows of 1024. -/
abbrev Rows : Shape := ⟨2, ![16384, 1024]⟩
/-- The shape of the weights. -/
abbrev Wts : Shape := ⟨2, ![1024, 1024]⟩

/-- Row b of an input against row k of the weights. -/
def score (x : Rows.Idx → EReal) (w : Wts.Idx → EReal) (b : Fin 16384) (k : Fin 1024) : EReal :=
  ∑ l : Fin 1024, x (ix2 b l) * w (ix2 k l)

/-- The sum of row b of an input. -/
def rowSum (x : Rows.Idx → EReal) (b : Fin 16384) : EReal :=
  ∑ l : Fin 1024, x (ix2 b l)

/-- Element (b, k) of the result. -/
def fusedAt (x0 x1 x2 x3 : Rows.Idx → EReal) (w : Wts.Idx → EReal) (b : Fin 16384) (k : Fin 1024) : EReal :=
  onlineFused (x0 (ix2 b k)) (x1 (ix2 b k)) (x2 (ix2 b k)) (x3 (ix2 b k))
      (score x0 w b k) (score x1 w b k) (score x2 w b k) (score x3 w b k)
    * rowFactor (rowSum x0 b) (rowSum x1 b) (rowSum x2 b) (rowSum x3 b)

/-- The result array. -/
def fused (x0 x1 x2 x3 : Rows.Idx → EReal) (w : Wts.Idx → EReal) : Rows.Idx → EReal :=
  fun i => fusedAt x0 x1 x2 x3 w ⟨(i 0).val, idx2_lt0 i⟩ ⟨(i 1).val, idx2_lt1 i⟩

theorem fused_ix2 (x0 x1 x2 x3 : Rows.Idx → EReal) (w : Wts.Idx → EReal) (b : Fin 16384) (k : Fin 1024) :
    fused x0 x1 x2 x3 w (ix2 b k) = fusedAt x0 x1 x2 x3 w b k := rfl

end Cert.Fusion

end
-- ==== Proof.KernelArray.lean ====
/-
  From the blocks to the whole result array.

  The grid has 32 points; point t fetches rows 512·t … 512·t + 511 of each of the four inputs (all 1024 columns),
  holds the whole transposed weights, and writes back the same rows of the result. The transposed weights are made
  before the call from the weights argument, so the weights block at (k, q) is the argument at (q, k). With the
  stored block read at an element (the previous module), point t therefore writes back rows 512·t … of the ONE
  whole-array function of the specification; row r is covered by point r / 512, so the result array is that
  function.
-/
import proofs.«417276_j38173669327601_3_alg».proof.Proof.KernelPoint
import proofs.«417276_j38173669327601_3_alg».proof.Proof.FusionSpec
import Idealize.ShloMosaic.Lib.StableHlo.Run
import Idealize.ShloMosaic.Lib.Tactic

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block lies, decided over the 32 points -/

theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_rows2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_rows3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_rows5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_weights : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem lt_points (t : Fin cfg0.N) : t.val < 32 :=
  t.isLt.trans_eq N_0

/-- The array row that row p of point t's blocks is. -/
def rowOf (t : Fin cfg0.N) (p : Fin 512) : Fin 16384 :=
  ⟨512 * t.val + p.val, by have := lt_points t; have := p.isLt; omega⟩

/-! ## The blocks, named at their literal types -/

abbrev blk0 (c : Dev nD) (t : Fin cfg0.N) : Vec Ideal S512x1024 .f32 := iblk m c 0 t
abbrev blk1 (c : Dev nD) (t : Fin cfg0.N) : Vec Ideal S512x1024 .f32 := iblk m c 1 t
abbrev blk2 (c : Dev nD) (t : Fin cfg0.N) : Vec Ideal S512x1024 .f32 := iblk m c 2 t
abbrev blk3 (c : Dev nD) (t : Fin cfg0.N) : Vec Ideal S512x1024 .f32 := iblk m c 3 t
abbrev wblk (c : Dev nD) (t : Fin cfg0.N) : Vec Ideal S1024x1024 .bf16 := iblk m c 4 t

/-- What the two operations before the call leave in the buffer the weights window stages: the weights argument
    transposed (the change of format is the identity on the extended reals). -/
theorem weights_array (c : Dev nD) :
    (V m c main_v1 : S1024x1024.Idx → EReal)
      = truncf (F := Ideal) (φ := .f32) .bf16 (transpose S1024x1024 [1, 0] (m ((c : Thread nD τ).loc main_arg4)) transposes_S1024x1024_S1024x1024_1_0) bitsLt_bf16_f32 := by
  dsimp only [V, hostOps0]
  after_results

/-- The weights block at (k, q) is the weights argument at (q, k). -/
theorem weights_at (c : Dev nD) (t : Fin cfg0.N) (k q : Fin 1024) :
    wblk m c t (ix2 k q) = ((m ((c : Thread nD τ).loc main_arg4)) : S1024x1024.Idx → EReal) (ix2 q k) := by
  obtain ⟨e0, e1⟩ := idx_weights t
  unfold wblk iblk
  rw [View.read_apply]
  show V m c main_v1 _ = _
  rw [weights_array m c]
  show transpose S1024x1024 [1, 0] (m ((c : Thread nD τ).loc main_arg4)) transposes_S1024x1024_S1024x1024_1_0 _ = _
  refine transpose_apply [1, 0] _ transposes_S1024x1024_S1024x1024_1_0 _ (ix2 q k) (fun b => ?_)
  match b with
  | ⟨0, _⟩ => show k.val = win0_4.index t (0 : Fin 2) * 1024 + 1 * k.val; rw [e0]; omega
  | ⟨1, _⟩ => show q.val = win0_4.index t (1 : Fin 2) * 1024 + 1 * q.val; rw [e1]; omega

/-- Input 0's block at point t is rows 512·t … 512·t + 511 of the argument. -/
theorem rows0_at (c : Dev nD) (t : Fin cfg0.N) (p : Fin 512) (k : Fin 1024) :
    blk0 m c t (ix2 p k) = ((m ((c : Thread nD τ).loc main_arg0)) : S16384x1024.Idx → EReal) (ix2 (rowOf t p) k) := by
  obtain ⟨e0, e1⟩ := idx_rows0 t
  unfold blk0 iblk
  rw [View.read_apply]
  show V m c main_arg0 _ = _
  rw [V_main_arg0]
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

/-- So its products with the weights block are the scores of those rows, -/
theorem dot0_at (c : Dev nD) (t : Fin cfg0.N) (p : Fin 512) (q : Fin 1024) :
    Point.tileDot (blk0 m c t) (wblk m c t) p q = Cert.Fusion.score (m ((c : Thread nD τ).loc main_arg0)) (m ((c : Thread nD τ).loc main_arg4)) (rowOf t p) q := by
  unfold Point.tileDot Cert.Fusion.score
  refine Finset.sum_congr rfl fun k _ => ?_
  rw [rows0_at m c t p k, weights_at m c t k q]

/-- and its row sums theirs. -/
theorem row0_at (c : Dev nD) (t : Fin cfg0.N) (p : Fin 512) :
    Point.tileRow (blk0 m c t) p = Cert.Fusion.rowSum (m ((c : Thread nD τ).loc main_arg0)) (rowOf t p) := by
  unfold Point.tileRow Cert.Fusion.rowSum
  refine Finset.sum_congr rfl fun k _ => ?_
  rw [rows0_at m c t p k]

/-- Input 1's block at point t is rows 512·t … 512·t + 511 of the argument. -/
theorem rows1_at (c : Dev nD) (t : Fin cfg0.N) (p : Fin 512) (k : Fin 1024) :
    blk1 m c t (ix2 p k) = ((m ((c : Thread nD τ).loc main_arg1)) : S16384x1024.Idx → EReal) (ix2 (rowOf t p) k) := by
  obtain ⟨e0, e1⟩ := idx_rows1 t
  unfold blk1 iblk
  rw [View.read_apply]
  show V m c main_arg1 _ = _
  rw [V_main_arg1]
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

/-- So its products with the weights block are the scores of those rows, -/
theorem dot1_at (c : Dev nD) (t : Fin cfg0.N) (p : Fin 512) (q : Fin 1024) :
    Point.tileDot (blk1 m c t) (wblk m c t) p q = Cert.Fusion.score (m ((c : Thread nD τ).loc main_arg1)) (m ((c : Thread nD τ).loc main_arg4)) (rowOf t p) q := by
  unfold Point.tileDot Cert.Fusion.score
  refine Finset.sum_congr rfl fun k _ => ?_
  rw [rows1_at m c t p k, weights_at m c t k q]

/-- and its row sums theirs. -/
theorem row1_at (c : Dev nD) (t : Fin cfg0.N) (p : Fin 512) :
    Point.tileRow (blk1 m c t) p = Cert.Fusion.rowSum (m ((c : Thread nD τ).loc main_arg1)) (rowOf t p) := by
  unfold Point.tileRow Cert.Fusion.rowSum
  refine Finset.sum_congr rfl fun k _ => ?_
  rw [rows1_at m c t p k]

/-- Input 2's block at point t is rows 512·t … 512·t + 511 of the argument. -/
theorem rows2_at (c : Dev nD) (t : Fin cfg0.N) (p : Fin 512) (k : Fin 1024) :
    blk2 m c t (ix2 p k) = ((m ((c : Thread nD τ).loc main_arg2)) : S16384x1024.Idx → EReal) (ix2 (rowOf t p) k) := by
  obtain ⟨e0, e1⟩ := idx_rows2 t
  unfold blk2 iblk
  rw [View.read_apply]
  show V m c main_arg2 _ = _
  rw [V_main_arg2]
  congr 1
  funext a
  apply Fin.ext
  match a with
  | ⟨0, _⟩ => show win0_2.index t (0 : Fin 2) * 512 + 1 * p.val = 512 * t.val + p.val; rw [e0]; omega
  | ⟨1, _⟩ => show win0_2.index t (1 : Fin 2) * 1024 + 1 * k.val = k.val; rw [e1]; omega

/-- So its products with the weights block are the scores of those rows, -/
theorem dot2_at (c : Dev nD) (t : Fin cfg0.N) (p : Fin 512) (q : Fin 1024) :
    Point.tileDot (blk2 m c t) (wblk m c t) p q = Cert.Fusion.score (m ((c : Thread nD τ).loc main_arg2)) (m ((c : Thread nD τ).loc main_arg4)) (rowOf t p) q := by
  unfold Point.tileDot Cert.Fusion.score
  refine Finset.sum_congr rfl fun k _ => ?_
  rw [rows2_at m c t p k, weights_at m c t k q]

/-- and its row sums theirs. -/
theorem row2_at (c : Dev nD) (t : Fin cfg0.N) (p : Fin 512) :
    Point.tileRow (blk2 m c t) p = Cert.Fusion.rowSum (m ((c : Thread nD τ).loc main_arg2)) (rowOf t p) := by
  unfold Point.tileRow Cert.Fusion.rowSum
  refine Finset.sum_congr rfl fun k _ => ?_
  rw [rows2_at m c t p k]

/-- Input 3's block at point t is rows 512·t … 512·t + 511 of the argument. -/
theorem rows3_at (c : Dev nD) (t : Fin cfg0.N) (p : Fin 512) (k : Fin 1024) :
    blk3 m c t (ix2 p k) = ((m ((c : Thread nD τ).loc main_arg3)) : S16384x1024.Idx → EReal) (ix2 (rowOf t p) k) := by
  obtain ⟨e0, e1⟩ := idx_rows3 t
  unfold blk3 iblk
  rw [View.read_apply]
  show V m c main_arg3 _ = _
  rw [V_main_arg3]
  congr 1
  funext a
  apply Fin.ext
  match a with
  | ⟨0, _⟩ => show win0_3.index t (0 : Fin 2) * 512 + 1 * p.val = 512 * t.val + p.val; rw [e0]; omega
  | ⟨1, _⟩ => show win0_3.index t (1 : Fin 2) * 1024 + 1 * k.val = k.val; rw [e1]; omega

/-- So its products with the weights block are the scores of those rows, -/
theorem dot3_at (c : Dev nD) (t : Fin cfg0.N) (p : Fin 512) (q : Fin 1024) :
    Point.tileDot (blk3 m c t) (wblk m c t) p q = Cert.Fusion.score (m ((c : Thread nD τ).loc main_arg3)) (m ((c : Thread nD τ).loc main_arg4)) (rowOf t p) q := by
  unfold Point.tileDot Cert.Fusion.score
  refine Finset.sum_congr rfl fun k _ => ?_
  rw [rows3_at m c t p k, weights_at m c t k q]

/-- and its row sums theirs. -/
theorem row3_at (c : Dev nD) (t : Fin cfg0.N) (p : Fin 512) :
    Point.tileRow (blk3 m c t) p = Cert.Fusion.rowSum (m ((c : Thread nD τ).loc main_arg3)) (rowOf t p) := by
  unfold Point.tileRow Cert.Fusion.rowSum
  refine Finset.sum_congr rfl fun k _ => ?_
  rw [rows3_at m c t p k]

/-! ## What a point writes back, the cover, the array -/

/-- Point t writes back block t of the specification's array of the arguments. -/
theorem flushed_eq (c : Dev nD) (t : Fin cfg0.N) :
    (dats m 0 c).flushed 5 t = ((cfg0.win 5).blk t).view.read (Elt Ideal)
      (Cert.Fusion.fused (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.ValueP.flushed5]
  funext j
  obtain ⟨p, q, rfl⟩ : ∃ (p : Fin 512) (q : Fin 1024), j = ix2 p q := ⟨j 0, j 1, eq_ix2 j⟩
  obtain ⟨e0, e1⟩ := idx_rows5 t
  have hemb : ((cfg0.win 5).blk t).view.emb (ix2 p q) = (ix2 (rowOf t p) q : S16384x1024.Idx) := by
    funext a
    apply Fin.ext
    match a with
    | ⟨0, _⟩ => show win0_5.index t (0 : Fin 2) * 512 + 1 * p.val = 512 * t.val + p.val; rw [e0]; omega
    | ⟨1, _⟩ => show win0_5.index t (1 : Fin 2) * 1024 + 1 * q.val = q.val; rw [e1]; omega
  show out0_5 (blk0 m c t) (blk1 m c t) (blk2 m c t) (blk3 m c t) (wblk m c t) (ix2 p q)
    = Cert.Fusion.fused (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p q))
  rw [hemb, Cert.Fusion.fused_ix2]
  unfold out0_5
  refine (Cert.KernelIdeal.ValueP.canon5_eq (F := Ideal) (View.ld (wblk m c t) r0_0) (View.ld (blk0 m c t) r0_1) (View.ld (blk1 m c t) r0_1)
    (View.ld (blk2 m c t) r0_1) (View.ld (blk3 m c t) r0_1) (ix2 p q)).trans ?_
  rw [View.ld_unit_zero (S := S1024x1024) hz, View.ld_unit_zero (S := S512x1024) hz, View.ld_unit_zero (S := S512x1024) hz,
    View.ld_unit_zero (S := S512x1024) hz, View.ld_unit_zero (S := S512x1024) hz]
  refine (Point.block_at (wblk m c t) (blk0 m c t) (blk1 m c t) (blk2 m c t) (blk3 m c t) p q).trans ?_
  unfold Cert.Fusion.fusedAt
  rw [rows0_at m c t p q, rows1_at m c t p q, rows2_at m c t p q, rows3_at m c t p q,
    dot0_at m c t p q, dot1_at m c t p q, dot2_at m c t p q, dot3_at m c t p q,
    row0_at m c t p, row1_at m c t p, row2_at m c t p, row3_at m c t p]

/-- An index of the array is in point t's block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2).slice (win0_5.rect t)).set ↔ _
  rw [View.set_slice_whole, Rect.mem_set_unit]
  exact Iff.rfl

/-- Every index is in the block of the point its row falls to. -/
theorem covered (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  let t : Fin cfg0.N := ⟨(i 0).val / 512, by rw [show cfg0.N = 32 from N_0]; omega⟩
  obtain ⟨e0, e1⟩ := idx_rows5 t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- The result array after the run is the specification's array of the arguments. -/
theorem final (c : Dev nD) : (dats m 0 c).arrAt 5 cfg0.N
    = Cert.Fusion.fused (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) (covered)

/-- The run, read: the result at the specification's array, the arguments unchanged. -/
theorem run : θ_run defs (onTc (τ := τ) (main (F := Ideal))) ⟨m, fun _ => 0, ρ⟩ fun r => ∀ c : Dev nD,
      r.2.mem ((c : Thread nD τ).loc main_v2) = Cert.Fusion.fused (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.ValueP.run_blocks m ρ)

end Cert.KernelIdeal.Array

end
-- ==== Proof.RefPoint.lean ====
/-
  One element of the reference's result.

  The reference stacks the four inputs into one array of four layers, multiplies every layer with the transposed
  weights in one contraction, takes over the four layers the largest score M (from -∞, then once more against -∞),
  forms eₘ = exp (sₘ - M), their sum D, the quotients eₘ / D, the products with the stacked inputs and their sum over
  the layers; beside it the sums of the rows of every layer, a mark where such a sum is exactly zero, the marks'
  count over the layers, the count plus one where the count is positive and one elsewhere, as a float; and multiplies.
  Read at element (b, k), stage by stage over the generated one-operation lemmas; the three stages those do not read
  (the stacking, the largest score, the count) are read here.
-/
import proofs.«417276_j38173669327601_3_alg».proof.Proof.RefRead
import proofs.«417276_j38173669327601_3_alg».proof.Proof.FusionSpec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Point

open Cert.ReferenceIdeal Cert.ReferenceIdeal.Gen Cert.ReferenceIdeal.ReadP Idealize.ShloMosaic Idealize.ShloMosaic.TcCoe Idealize.SL.Sem
open Idealize.ShloMosaic.ValueIdx

/-! ## The stacking -/

/-- Four arrays of one layer laid along a new first axis, read at layer j: the j-th array at its one layer. -/
theorem stack_at (y0 y1 y2 y3 : S1x16384x1024.Idx → EReal) (b : Fin 16384) (l : Fin 1024) :
    (concatenate S4x16384x1024 0 [⟨S1x16384x1024, y0⟩, ⟨S1x16384x1024, y1⟩, ⟨S1x16384x1024, y2⟩, ⟨S1x16384x1024, y3⟩] concatenates_S1x16384x1024_S1x16384x1024_S1x16384x1024_S1x16384x1024_S4x16384x1024_d0 (ix3 (0 : Fin 4) b l) = y0 (ix3 (0 : Fin 1) b l))
    ∧ (concatenate S4x16384x1024 0 [⟨S1x16384x1024, y0⟩, ⟨S1x16384x1024, y1⟩, ⟨S1x16384x1024, y2⟩, ⟨S1x16384x1024, y3⟩] concatenates_S1x16384x1024_S1x16384x1024_S1x16384x1024_S1x16384x1024_S4x16384x1024_d0 (ix3 (1 : Fin 4) b l) = y1 (ix3 (0 : Fin 1) b l))
    ∧ (concatenate S4x16384x1024 0 [⟨S1x16384x1024, y0⟩, ⟨S1x16384x1024, y1⟩, ⟨S1x16384x1024, y2⟩, ⟨S1x16384x1024, y3⟩] concatenates_S1x16384x1024_S1x16384x1024_S1x16384x1024_S1x16384x1024_S4x16384x1024_d0 (ix3 (2 : Fin 4) b l) = y2 (ix3 (0 : Fin 1) b l))
    ∧ (concatenate S4x16384x1024 0 [⟨S1x16384x1024, y0⟩, ⟨S1x16384x1024, y1⟩, ⟨S1x16384x1024, y2⟩, ⟨S1x16384x1024, y3⟩] concatenates_S1x16384x1024_S1x16384x1024_S1x16384x1024_S1x16384x1024_S4x16384x1024_d0 (ix3 (3 : Fin 4) b l) = y3 (ix3 (0 : Fin 1) b l)) := by
  refine ⟨?_, ?_, ?_, ?_⟩
  · exact concatenate_apply_piece (t := S4x16384x1024) (0 : Fin 3) ([⟨S1x16384x1024, y0⟩, ⟨S1x16384x1024, y1⟩, ⟨S1x16384x1024, y2⟩, ⟨S1x16384x1024, y3⟩] : List ((s : Shape) × (s.Idx → EReal))) concatenates_S1x16384x1024_S1x16384x1024_S1x16384x1024_S1x16384x1024_S4x16384x1024_d0 (ix3 (0 : Fin 4) b l) 0 (by simp) S1x16384x1024 y0 rfl rfl 0 rfl
      (ix3 (0 : Fin 1) b l) (fun a ha => by
        match a with
        | ⟨0, _⟩ => exact absurd rfl ha
        | ⟨1, _⟩ => rfl
        | ⟨2, _⟩ => rfl) rfl
  · exact concatenate_apply_piece (t := S4x16384x1024) (0 : Fin 3) ([⟨S1x16384x1024, y0⟩, ⟨S1x16384x1024, y1⟩, ⟨S1x16384x1024, y2⟩, ⟨S1x16384x1024, y3⟩] : List ((s : Shape) × (s.Idx → EReal))) concatenates_S1x16384x1024_S1x16384x1024_S1x16384x1024_S1x16384x1024_S4x16384x1024_d0 (ix3 (1 : Fin 4) b l) 1 (by simp) S1x16384x1024 y1 rfl rfl 1 rfl
      (ix3 (0 : Fin 1) b l) (fun a ha => by
        match a with
        | ⟨0, _⟩ => exact absurd rfl ha
        | ⟨1, _⟩ => rfl
        | ⟨2, _⟩ => rfl) rfl
  · exact concatenate_apply_piece (t := S4x16384x1024) (0 : Fin 3) ([⟨S1x16384x1024, y0⟩, ⟨S1x16384x1024, y1⟩, ⟨S1x16384x1024, y2⟩, ⟨S1x16384x1024, y3⟩] : List ((s : Shape) × (s.Idx → EReal))) concatenates_S1x16384x1024_S1x16384x1024_S1x16384x1024_S1x16384x1024_S4x16384x1024_d0 (ix3 (2 : Fin 4) b l) 2 (by simp) S1x16384x1024 y2 rfl rfl 2 rfl
      (ix3 (0 : Fin 1) b l) (fun a ha => by
        match a with
        | ⟨0, _⟩ => exact absurd rfl ha
        | ⟨1, _⟩ => rfl
        | ⟨2, _⟩ => rfl) rfl
  · exact concatenate_apply_piece (t := S4x16384x1024) (0 : Fin 3) ([⟨S1x16384x1024, y0⟩, ⟨S1x16384x1024, y1⟩, ⟨S1x16384x1024, y2⟩, ⟨S1x16384x1024, y3⟩] : List ((s : Shape) × (s.Idx → EReal))) concatenates_S1x16384x1024_S1x16384x1024_S1x16384x1024_S1x16384x1024_S4x16384x1024_d0 (ix3 (3 : Fin 4) b l) 3 (by simp) S1x16384x1024 y3 rfl rfl 3 rfl
      (ix3 (0 : Fin 1) b l) (fun a ha => by
        match a with
        | ⟨0, _⟩ => exact absurd rfl ha
        | ⟨1, _⟩ => rfl
        | ⟨2, _⟩ => rfl) rfl

/-- The four inputs as a family over the layer. -/
def layer (X0 X1 X2 X3 : (⟨S16384x1024, .f32⟩ : BufTy).Contents (Elt Ideal)) : Fin 4 → (⟨S16384x1024, .f32⟩ : BufTy).Contents (Elt Ideal) := ![X0, X1, X2, X3]

/-- The stacked array at layer j, row b, column l is input j at (b, l). -/
theorem stacked_at (X0 X1 X2 X3 : (⟨S16384x1024, .f32⟩ : BufTy).Contents (Elt Ideal)) (j : Fin 4) (b : Fin 16384) (l : Fin 1024) :
    val_main_v4 (F := Ideal) X0 X1 X2 X3 (ix3 j b l) = layer X0 X1 X2 X3 j (ix2 b l) := by
  obtain ⟨h0, h1, h2, h3⟩ := stack_at (val_main_v0 (F := Ideal) X0) (val_main_v1 (F := Ideal) X1) (val_main_v2 (F := Ideal) X2) (val_main_v3 (F := Ideal) X3) b l
  unfold val_main_v4
  match j with
  | ⟨0, _⟩ => refine h0.trans ((val_main_v0_apply X0 _).trans (congrArg X0 (funext fun a => by match a with | ⟨0, _⟩ => rfl | ⟨1, _⟩ => rfl)))
  | ⟨1, _⟩ => refine h1.trans ((val_main_v1_apply X1 _).trans (congrArg X1 (funext fun a => by match a with | ⟨0, _⟩ => rfl | ⟨1, _⟩ => rfl)))
  | ⟨2, _⟩ => refine h2.trans ((val_main_v2_apply X2 _).trans (congrArg X2 (funext fun a => by match a with | ⟨0, _⟩ => rfl | ⟨1, _⟩ => rfl)))
  | ⟨3, _⟩ => refine h3.trans ((val_main_v3_apply X3 _).trans (congrArg X3 (funext fun a => by match a with | ⟨0, _⟩ => rfl | ⟨1, _⟩ => rfl)))

/-! ## The scores -/

/-- The contraction at layer j, row b, column k: row b of input j against row k of the weights. -/
theorem scores_at (X0 X1 X2 X3 : (⟨S16384x1024, .f32⟩ : BufTy).Contents (Elt Ideal)) (W : (⟨S1024x1024, .f32⟩ : BufTy).Contents (Elt Ideal)) (j : Fin 4) (b : Fin 16384) (k : Fin 1024) :
    val_main_v5 (F := Ideal) X0 X1 X2 X3 W (ix3 j b k) = Cert.Fusion.score (layer X0 X1 X2 X3 j) W b k := by
  rw [val_main_v5_apply]
  unfold Cert.Fusion.score
  refine Finset.sum_congr rfl fun l _ => ?_
  have el : lidx_main_v5 (ix3 j b k) l = ix3 j b l := funext fun a => by
    match a with
    | ⟨0, _⟩ => rfl
    | ⟨1, _⟩ => rfl
    | ⟨2, _⟩ => rfl
  have er : ridx_main_v5 (ix3 j b k) l = ix2 k l := funext fun a => by
    match a with
    | ⟨0, _⟩ => rfl
    | ⟨1, _⟩ => rfl
  rw [el, er, stacked_at]

/-! ## The largest score, the exponentials, their sum, the weighted sum -/

/-- The largest score over the four layers, from -∞. -/
theorem top_at (X0 X1 X2 X3 : (⟨S16384x1024, .f32⟩ : BufTy).Contents (Elt Ideal)) (W : (⟨S1024x1024, .f32⟩ : BufTy).Contents (Elt Ideal)) (b : Fin 16384) (k : Fin 1024) :
    val_main_v6 (F := Ideal) X0 X1 X2 X3 W (ix2 b k)
      = (Finset.univ : Finset (Fin 4)).fold max (Ideal.ofBits .f32 0xFF800000#32)
          (fun j => Cert.Fusion.score (layer X0 X1 X2 X3 j) W b k) := by
  have hR : S4x16384x1024.Reduces [0] S16384x1024 := by decide
  unfold val_main_v6
  refine (Host.reduce_eq_fold_single FloatOps.maximumf _ _ reducesTo_S4x16384x1024_S16384x1024_d0 hR h_S_ (ix2 b k)).trans ?_
  refine congrArg (fun f => Finset.fold max (Ideal.ofBits .f32 0xFF800000#32) f (Finset.univ : Finset (Fin 4))) (funext fun (j : Fin 4) => ?_)
  have hl : hR.lift (ix2 b k) j = ix3 j b k := funext fun a => Fin.ext (by
    match a with
    | ⟨0, _⟩ => rfl
    | ⟨1, _⟩ => rfl
    | ⟨2, _⟩ => rfl)
  show val_main_v5 (F := Ideal) X0 X1 X2 X3 W (hR.lift (ix2 b k) j) = _
  rw [hl, scores_at]

/-- The shift the reference subtracts at (b, k). -/
abbrev shiftAt (X0 X1 X2 X3 : (⟨S16384x1024, .f32⟩ : BufTy).Contents (Elt Ideal)) (W : (⟨S1024x1024, .f32⟩ : BufTy).Contents (Elt Ideal)) (b : Fin 16384) (k : Fin 1024) : EReal :=
  val_main_v8 (F := Ideal) X0 X1 X2 X3 W (ix2 b k)

/-- Where the four scores are real numbers, so is the shift: it is at least the first and below +∞. -/
theorem shift_real (X0 X1 X2 X3 : (⟨S16384x1024, .f32⟩ : BufTy).Contents (Elt Ideal)) (W : (⟨S1024x1024, .f32⟩ : BufTy).Contents (Elt Ideal)) (b : Fin 16384) (k : Fin 1024)
    (hs : ∀ j : Fin 4, ∃ r : ℝ, Cert.Fusion.score (layer X0 X1 X2 X3 j) W b k = (r : EReal)) :
    ∃ r : ℝ, shiftAt X0 X1 X2 X3 W b k = (r : EReal) := by
  have e : shiftAt X0 X1 X2 X3 W b k = max (Ideal.ofBits .f32 0xFF800000#32) (val_main_v6 (F := Ideal) X0 X1 X2 X3 W (ix2 b k)) := by
    show val_main_v8 (F := Ideal) X0 X1 X2 X3 W (ix2 b k) = _
    rw [val_main_v8_apply, val_main_v7_apply, val_main_cst_0_apply]
    rfl
  rw [e, top_at, Cert.Fusion.ofBits_negInf, max_eq_right bot_le]
  have h1 : (Finset.univ : Finset (Fin 4)).fold max (⊥ : EReal) (fun j => Cert.Fusion.score (layer X0 X1 X2 X3 j) W b k) < ⊤ :=
    (Finset.fold_max_lt _).2 ⟨bot_lt_top, fun j _ => by obtain ⟨r, hr⟩ := hs j; rw [hr]; exact EReal.coe_lt_top r⟩
  have h2 : (⊥ : EReal) < (Finset.univ : Finset (Fin 4)).fold max (⊥ : EReal) (fun j => Cert.Fusion.score (layer X0 X1 X2 X3 j) W b k) :=
    (Finset.lt_fold_max _).2 (Or.inr ⟨0, Finset.mem_univ _, by obtain ⟨r, hr⟩ := hs 0; rw [hr]; exact EReal.bot_lt_coe r⟩)
  exact ⟨_, (EReal.coe_toReal h1.ne h2.ne').symm⟩

/-- Layer j's exponential at (b, k). -/
theorem exp_at (X0 X1 X2 X3 : (⟨S16384x1024, .f32⟩ : BufTy).Contents (Elt Ideal)) (W : (⟨S1024x1024, .f32⟩ : BufTy).Contents (Elt Ideal)) (j : Fin 4) (b : Fin 16384) (k : Fin 1024) :
    val_main_v12 (F := Ideal) X0 X1 X2 X3 W (ix3 j b k)
      = Ideal.exp (Cert.Fusion.score (layer X0 X1 X2 X3 j) W b k - shiftAt X0 X1 X2 X3 W b k) := by
  have e : idx_main_v9 (idx_main_v10 (ix3 j b k)) = ix2 b k := funext fun a => by
    match a with
    | ⟨0, _⟩ => rfl
    | ⟨1, _⟩ => rfl
  rw [val_main_v12_apply, val_main_v11_apply, val_main_v10_apply, val_main_v9_apply, scores_at, e]
  rfl

/-- The exponentials' sum over the layers at (b, k). -/
theorem denom_at (X0 X1 X2 X3 : (⟨S16384x1024, .f32⟩ : BufTy).Contents (Elt Ideal)) (W : (⟨S1024x1024, .f32⟩ : BufTy).Contents (Elt Ideal)) (b : Fin 16384) (k : Fin 1024) :
    val_main_v13 (F := Ideal) X0 X1 X2 X3 W (ix2 b k)
      = Ideal.ofBits .f32 0x00000000#32 + ∑ j : Fin 4, Ideal.exp (Cert.Fusion.score (layer X0 X1 X2 X3 j) W b k - shiftAt X0 X1 X2 X3 W b k) := by
  rw [val_main_v13_apply]
  refine congrArg₂ (· + ·) rfl (Finset.sum_congr rfl fun j _ => ?_)
  have e : idx_main_v13 (ix2 b k) j = ix3 j b k := funext fun a => by
    match a with
    | ⟨0, _⟩ => rfl
    | ⟨1, _⟩ => rfl
    | ⟨2, _⟩ => rfl
  rw [e, exp_at]

/-- Layer j's weight at (b, k): its exponential over the sum. -/
theorem weight_at (X0 X1 X2 X3 : (⟨S16384x1024, .f32⟩ : BufTy).Contents (Elt Ideal)) (W : (⟨S1024x1024, .f32⟩ : BufTy).Contents (Elt Ideal)) (j : Fin 4) (b : Fin 16384) (k : Fin 1024) :
    val_main_v16 (F := Ideal) X0 X1 X2 X3 W (ix3 j b k)
      = Ideal.div (Ideal.exp (Cert.Fusion.score (layer X0 X1 X2 X3 j) W b k - shiftAt X0 X1 X2 X3 W b k)) (val_main_v13 (F := Ideal) X0 X1 X2 X3 W (ix2 b k)) := by
  have e : idx_main_v14 (idx_main_v15 (ix3 j b k)) = ix2 b k := funext fun a => by
    match a with
    | ⟨0, _⟩ => rfl
    | ⟨1, _⟩ => rfl
  rw [val_main_v16_apply, val_main_v15_apply, val_main_v14_apply, exp_at, e]
  rfl

/-- The weighted sum over the layers at (b, k). -/
theorem mix_at (X0 X1 X2 X3 : (⟨S16384x1024, .f32⟩ : BufTy).Contents (Elt Ideal)) (W : (⟨S1024x1024, .f32⟩ : BufTy).Contents (Elt Ideal)) (b : Fin 16384) (k : Fin 1024) :
    val_main_v18 (F := Ideal) X0 X1 X2 X3 W (ix2 b k)
      = Ideal.ofBits .f32 0x00000000#32 + ∑ j : Fin 4, layer X0 X1 X2 X3 j (ix2 b k)
          * Ideal.div (Ideal.exp (Cert.Fusion.score (layer X0 X1 X2 X3 j) W b k - shiftAt X0 X1 X2 X3 W b k)) (val_main_v13 (F := Ideal) X0 X1 X2 X3 W (ix2 b k)) := by
  rw [val_main_v18_apply]
  refine congrArg₂ (· + ·) rfl (Finset.sum_congr rfl fun j _ => ?_)
  have e : idx_main_v18 (ix2 b k) j = ix3 j b k := funext fun a => by
    match a with
    | ⟨0, _⟩ => rfl
    | ⟨1, _⟩ => rfl
    | ⟨2, _⟩ => rfl
  rw [e, val_main_v17_apply, stacked_at, weight_at]
  rfl

/-- The weighted sum is the specification's form with the reference's one shift. -/
theorem mix_eq (X0 X1 X2 X3 : (⟨S16384x1024, .f32⟩ : BufTy).Contents (Elt Ideal)) (W : (⟨S1024x1024, .f32⟩ : BufTy).Contents (Elt Ideal)) (b : Fin 16384) (k : Fin 1024) :
    val_main_v18 (F := Ideal) X0 X1 X2 X3 W (ix2 b k)
      = Cert.Fusion.shiftedFused (shiftAt X0 X1 X2 X3 W b k) (X0 (ix2 b k)) (X1 (ix2 b k)) (X2 (ix2 b k)) (X3 (ix2 b k))
          (Cert.Fusion.score X0 W b k) (Cert.Fusion.score X1 W b k) (Cert.Fusion.score X2 W b k) (Cert.Fusion.score X3 W b k) := by
  rw [mix_at, denom_at]
  simp only [Fin.sum_univ_four]
  rfl

/-! ## The row sums, the marks, their count, the factor -/

/-- A fold over four values of a commutative, associative operation, written out from the initial value. -/
theorem fold_four {α : Type} (f : α → α → α) [Std.Commutative f] [Std.Associative f] (z : α) (g : Fin 4 → α) :
    (Finset.univ : Finset (Fin 4)).fold f z g = f (f (f (f z (g 0)) (g 1)) (g 2)) (g 3) := by
  simp only [Fin.univ_succ, Finset.fold_cons, Finset.fold_map, Finset.univ_unique, Finset.fold_singleton]
  show f (g 0) (f (g 1) (f (g 2) (f (g 3) z))) = _
  ac_rfl

/-- The sum of row b of layer j. -/
theorem rows_at (X0 X1 X2 X3 : (⟨S16384x1024, .f32⟩ : BufTy).Contents (Elt Ideal)) (j : Fin 4) (b : Fin 16384) :
    val_main_v19 (F := Ideal) X0 X1 X2 X3 (ix2 j b) = Ideal.ofBits .f32 0x00000000#32 + Cert.Fusion.rowSum (layer X0 X1 X2 X3 j) b := by
  rw [val_main_v19_apply]
  unfold Cert.Fusion.rowSum
  refine congrArg₂ (· + ·) rfl (Finset.sum_congr rfl fun l _ => ?_)
  have e : idx_main_v19 (ix2 j b) l = ix3 j b l := funext fun a => by
    match a with
    | ⟨0, _⟩ => rfl
    | ⟨1, _⟩ => rfl
    | ⟨2, _⟩ => rfl
  rw [e, stacked_at]

/-- Layer j's mark at row b. -/
theorem mark_at (X0 X1 X2 X3 : (⟨S16384x1024, .f32⟩ : BufTy).Contents (Elt Ideal)) (j : Fin 4) (b : Fin 16384) :
    val_main_v22 (F := Ideal) X0 X1 X2 X3 (ix2 j b) = Cert.Fusion.zeroMark (Cert.Fusion.rowSum (layer X0 X1 X2 X3 j) b) := by
  rw [val_main_v22_apply, val_main_v21_apply, rows_at, val_main_v20_apply, val_main_cst_4_apply, Ideal.ofBits_zero_f32, zero_add]
  rfl

/-- The count of the marks over the layers at row b. -/
theorem count_at (X0 X1 X2 X3 : (⟨S16384x1024, .f32⟩ : BufTy).Contents (Elt Ideal)) (b : Fin 16384) :
    val_main_v23 (F := Ideal) X0 X1 X2 X3 (ix1 b)
      = Cert.Fusion.zeroCount (Cert.Fusion.rowSum X0 b) (Cert.Fusion.rowSum X1 b) (Cert.Fusion.rowSum X2 b) (Cert.Fusion.rowSum X3 b) := by
  have hR : S4x16384.Reduces [0] S16384 := by decide
  unfold val_main_v23
  refine (Host.reduce_eq_fold_single IntOp.addi _ _ reducesTo_S4x16384_S16384_d0 hR h_S_ (ix1 b)).trans ?_
  refine (congrArg (fun f => Finset.fold IntOp.addi (0#32 : BitVec 32) f (Finset.univ : Finset (Fin 4))) (funext fun (j : Fin 4) => ?_)).trans
    (fold_four IntOp.addi (0#32 : BitVec 32) fun j => Cert.Fusion.zeroMark (Cert.Fusion.rowSum (layer X0 X1 X2 X3 j) b))
  have hl : hR.lift (ix1 b) j = ix2 j b := funext fun a => Fin.ext (by
    match a with
    | ⟨0, _⟩ => rfl
    | ⟨1, _⟩ => rfl)
  show val_main_v22 (F := Ideal) X0 X1 X2 X3 (hR.lift (ix1 b) j) = _
  rw [hl, mark_at]

/-- The factor at (b, k): the count plus one where the count is positive, else one, as a float. -/
theorem factor_at (X0 X1 X2 X3 : (⟨S16384x1024, .f32⟩ : BufTy).Contents (Elt Ideal)) (b : Fin 16384) (k : Fin 1024) :
    val_main_v31 (F := Ideal) X0 X1 X2 X3 (ix2 b k)
      = Cert.Fusion.rowFactor (Cert.Fusion.rowSum X0 b) (Cert.Fusion.rowSum X1 b) (Cert.Fusion.rowSum X2 b) (Cert.Fusion.rowSum X3 b) := by
  have e : idx_main_v30 (idx_main_v31 (ix2 b k)) = ix1 b := funext fun a => by
    match a with
    | ⟨0, _⟩ => rfl
  rw [val_main_v31_apply, val_main_v30_apply, val_main_v29_apply, e, val_main_v28_apply, val_main_v25_apply, val_main_v27_apply,
    count_at, val_main_v24_apply, val_main_c_5_apply, val_main_v26_apply, val_main_c_6_apply, val_main_call0_v1_apply,
    val_main_call0_v0_apply, val_main_c_7_apply]
  rfl

/-! ## The element of the result -/

/-- The reference's result at (b, k), in the specification's terms with the reference's one shift. -/
theorem result_at (X0 X1 X2 X3 : (⟨S16384x1024, .f32⟩ : BufTy).Contents (Elt Ideal)) (W : (⟨S1024x1024, .f32⟩ : BufTy).Contents (Elt Ideal)) (b : Fin 16384) (k : Fin 1024) :
    val_main_v32 (F := Ideal) X0 X1 X2 X3 W (ix2 b k)
      = Cert.Fusion.shiftedFused (shiftAt X0 X1 X2 X3 W b k) (X0 (ix2 b k)) (X1 (ix2 b k)) (X2 (ix2 b k)) (X3 (ix2 b k))
            (Cert.Fusion.score X0 W b k) (Cert.Fusion.score X1 W b k) (Cert.Fusion.score X2 W b k) (Cert.Fusion.score X3 W b k)
          * Cert.Fusion.rowFactor (Cert.Fusion.rowSum X0 b) (Cert.Fusion.rowSum X1 b) (Cert.Fusion.rowSum X2 b) (Cert.Fusion.rowSum X3 b) := by
  rw [val_main_v32_apply, mix_eq, factor_at]
  rfl

end Cert.ReferenceIdeal.Point

end
-- ==== Proof.ScoreReal.lean ====
/-
  Sums of real numbers are real numbers.

  Where every entry of an input and of the weights is a real number, every score (a finite sum of products of entries)
  is a real number: the inclusion of the reals into the extended reals carries finite sums and products to themselves.
-/
import proofs.«417276_j38173669327601_3_alg».proof.Proof.FusionSpec

noncomputable section

namespace Cert.Fusion

open Idealize.ShloMosaic Idealize.ShloMosaic.ValueIdx

/-- The inclusion of the reals carries a finite sum to the sum of the inclusions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score of real entries is a real number. -/
theorem score_real (x : Rows.Idx → EReal) (w : Wts.Idx → EReal) (hx : ∀ i, ∃ r : ℝ, x i = (r : EReal))
    (hw : ∀ i, ∃ r : ℝ, w i = (r : EReal)) (b : Fin 16384) (k : Fin 1024) : ∃ r : ℝ, score x w b k = (r : EReal) := by
  choose fx hfx using hx
  choose fw hfw using hw
  refine ⟨∑ l : Fin 1024, fx (ix2 b l) * fw (ix2 k l), ?_⟩
  unfold score
  rw [coe_sum]
  refine Finset.sum_congr rfl fun l _ => ?_
  rw [hfx, hfw, EReal.coe_mul]

end Cert.Fusion

end
-- ==== Proof.RefArray.lean ====
/-
  The reference's whole result array.

  Where every entry of the five inputs is a real number, every score is a real number, so is the reference's shift, and
  the law of the two recurrences applies at every element: the reference's result array is the specification's array
  of the arguments.
-/
import proofs.«417276_j38173669327601_3_alg».proof.Proof.RefPoint
import proofs.«417276_j38173669327601_3_alg».proof.Proof.ScoreReal

noncomputable section

namespace Cert.ReferenceIdeal.Array

open Cert.ReferenceIdeal Cert.ReferenceIdeal.Gen Cert.ReferenceIdeal.ReadP Idealize.ShloMosaic Idealize.ShloMosaic.TcCoe Idealize.SL.Sem
open Idealize.ShloMosaic.ValueIdx

/-- On inputs whose entries are all real numbers the last stage of the reference is the specification's array. -/
theorem result_eq (X0 X1 X2 X3 : (⟨S16384x1024, .f32⟩ : BufTy).Contents (Elt Ideal)) (W : (⟨S1024x1024, .f32⟩ : BufTy).Contents (Elt Ideal))
    (h0 : ∀ i, ∃ r : ℝ, X0 i = (r : EReal)) (h1 : ∀ i, ∃ r : ℝ, X1 i = (r : EReal)) (h2 : ∀ i, ∃ r : ℝ, X2 i = (r : EReal))
    (h3 : ∀ i, ∃ r : ℝ, X3 i = (r : EReal)) (hW : ∀ i, ∃ r : ℝ, W i = (r : EReal)) :
    val_main_v32 (F := Ideal) X0 X1 X2 X3 W = Cert.Fusion.fused X0 X1 X2 X3 W := by
  funext i
  obtain ⟨b, k, rfl⟩ : ∃ (b : Fin 16384) (k : Fin 1024), i = ix2 b k := ⟨i 0, i 1, eq_ix2 i⟩
  rw [Point.result_at, Cert.Fusion.fused_ix2]
  unfold Cert.Fusion.fusedAt
  refine congrArg₂ (· * ·) ?_ rfl
  obtain ⟨x0, hx0⟩ := h0 (ix2 b k)
  obtain ⟨x1, hx1⟩ := h1 (ix2 b k)
  obtain ⟨x2, hx2⟩ := h2 (ix2 b k)
  obtain ⟨x3, hx3⟩ := h3 (ix2 b k)
  obtain ⟨s0, hs0⟩ := Cert.Fusion.score_real X0 W h0 hW b k
  obtain ⟨s1, hs1⟩ := Cert.Fusion.score_real X1 W h1 hW b k
  obtain ⟨s2, hs2⟩ := Cert.Fusion.score_real X2 W h2 hW b k
  obtain ⟨s3, hs3⟩ := Cert.Fusion.score_real X3 W h3 hW b k
  obtain ⟨M, hM⟩ := Point.shift_real X0 X1 X2 X3 W b k (fun j => by
    match j with
    | ⟨0, _⟩ => exact ⟨s0, hs0⟩
    | ⟨1, _⟩ => exact ⟨s1, hs1⟩
    | ⟨2, _⟩ => exact ⟨s2, hs2⟩
    | ⟨3, _⟩ => exact ⟨s3, hs3⟩)
  rw [hM, hx0, hx1, hx2, hx3, hs0, hs1, hs2, hs3]
  exact (Cert.Fusion.onlineFused_eq_shiftedFused x0 x1 x2 x3 s0 s1 s2 s3 M).symm

end Cert.ReferenceIdeal.Array

end
-- ==== Proof.FiniteInputs.lean ====
/-
  What the precondition gives: every entry of every input is a real number.

  The precondition is the conjunction of five "all entries have |x| < +∞", one per input. An "all" that is true is
  true at every entry; |x| is max x (-x), which is +∞ at both infinities; so every entry is neither infinity, that is,
  a real number.
-/
import proofs.«417276_j38173669327601_3_alg».proof.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Finite

open Idealize.ShloMosaic Idealize.ShloMosaic.ValueIdx

/-- The pattern of +∞ is the top of the extended reals. -/
theorem ofBits_posInf : Ideal.ofBits .f32 0x7F800000#32 = (⊤ : EReal) := by
  simp [Ideal.ofBits, Ideal.ieee]

/-- An extended real whose absolute value compares below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hlt : max x (-x) < (⊤ : EReal) := by
    by_contra hn
    have h0 : FloatOps.cmpf (F := Ideal) (φ := .f32) .olt (FloatOps.hostAbsf (F := Ideal) (φ := .f32) x) (Ideal.ofBits .f32 0x7F800000#32) = 0#1 := by
      rw [ofBits_posInf]
      show BitVec.ofBool (decide (max x (-x) < (⊤ : EReal))) = 0#1
      rw [decide_eq_false hn]
      rfl
    rw [h0] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

instance : Subsingleton (⟨0, ![]⟩ : Shape).Idx := ⟨fun a b => funext fun d => d.elim0⟩

/-- A true "all entries have |x| < +∞" over an array makes every entry a real number. -/
theorem real_of_all {S : Shape} (X : FVec Ideal S .f32) (hb : (⟨0, ![]⟩ : Shape).BroadcastsInDim S (![] : Fin 0 → Fin S.rank))
    {axes : List (Fin S.rank)} (hr : S.ReducesTo axes (⟨0, ![]⟩ : Shape)) (hu : 0 < (⟨0, ![]⟩ : Shape).numel)
    (hall : Host.reduce IntOp.andi
        (cmpf .olt (Host.absf X) (broadcastInDim S ![] hb (constant (F := Ideal) (⟨0, ![]⟩ : Shape) .f32 0x7F800000#32)))
        (constantI (⟨0, ![]⟩ : Shape) 1 1#1) hr hu ix0 = 1#1)
    (i : S.Idx) : ∃ r : ℝ, X i = (r : EReal) := by
  have e := Host.reduce_andi_all _ _ hr hu ix0 hall i
  have hc : (broadcastInDim S ![] hb (constant (F := Ideal) (⟨0, ![]⟩ : Shape) .f32 0x7F800000#32)) i = Ideal.ofBits .f32 0x7F800000#32 :=
    broadcastInDim_apply _ hb _ i (fun a => a.elim0) (fun a => a.elim0)
  refine real_of_abs_lt (X i) ?_
  rw [← hc]
  exact e

variable [hP : Cert.Pre_finite_inputs.Facts]

/-- The precondition, split: every entry of each of the five inputs is a real number. -/
theorem reals_of_pre (X0 X1 X2 X3 : FVec Ideal Cert.Pre_finite_inputs.S16384x1024 .f32) (W : FVec Ideal Cert.Pre_finite_inputs.S1024x1024 .f32)
    (h : Cert.Pre_finite_inputs.fn (F := Ideal) X0 X1 X2 X3 W = fun _ => 1#1) :
    (∀ i, ∃ r : ℝ, X0 i = (r : EReal)) ∧ (∀ i, ∃ r : ℝ, X1 i = (r : EReal)) ∧ (∀ i, ∃ r : ℝ, X2 i = (r : EReal))
      ∧ (∀ i, ∃ r : ℝ, X3 i = (r : EReal)) ∧ (∀ i, ∃ r : ℝ, W i = (r : EReal)) := by
  have h0 := congrFun h ix0
  dsimp only [Cert.Pre_finite_inputs.fn, Cert.Pre_finite_inputs.fn_part1, andi] at h0
  obtain ⟨h0123, a4⟩ := IntOp.andi_eq_one.1 h0
  obtain ⟨h012, a3⟩ := IntOp.andi_eq_one.1 h0123
  obtain ⟨h01, a2⟩ := IntOp.andi_eq_one.1 h012
  obtain ⟨a0, a1⟩ := IntOp.andi_eq_one.1 h01
  exact ⟨real_of_all X0 _ _ _ a0, real_of_all X1 _ _ _ a1, real_of_all X2 _ _ _ a2, real_of_all X3 _ _ _ a3, real_of_all W _ _ _ a4⟩

end Cert.Finite

end
-- ==== Proof.lean ====
/-
  The certificate: the kernel (four inputs fused by a softmax over the inputs of their scores against shared weights,
  rescaled by how many inputs have an all-zero-sum row) against its jnp reference, over the extended reals.

  The kernel runs a four-step recurrence per element that keeps a running largest score, a running denominator and a
  running numerator; the reference shifts all four scores by their maximum at once. On real numbers the two quotients
  are one number (Proof/OnlineLaw.lean), and the precondition makes every entry, hence every score, a real number
  (Proof/FiniteInputs.lean, Proof/ScoreReal.lean). The kernel's result array, block by block, is the specification's one
  whole-array function (Proof/KernelPoint.lean, Proof/KernelArray.lean); the reference's, stage by stage, is the same
  function (Proof/RefPoint.lean, Proof/RefArray.lean). The ideal pass rewrote nothing, so the kernel's idealization is its
  own text read on the extended reals.
-/
import proofs.«417276_j38173669327601_3_alg».proof.Defs
import proofs.«417276_j38173669327601_3_alg».proof.Proof.Gen.Kernel
import proofs.«417276_j38173669327601_3_alg».proof.Proof.Gen.Kernel.Skeleton
import proofs.«417276_j38173669327601_3_alg».proof.Proof.Gen.Kernel.Launch
import proofs.«417276_j38173669327601_3_alg».proof.Proof.Gen.Kernel.Points
import proofs.«417276_j38173669327601_3_alg».proof.Proof.Gen.Kernel.Frame
import proofs.«417276_j38173669327601_3_alg».proof.Proof.Gen.KernelIdeal
import proofs.«417276_j38173669327601_3_alg».proof.Proof.Gen.KernelIdeal.Skeleton
import proofs.«417276_j38173669327601_3_alg».proof.Proof.Gen.KernelIdeal.Launch
import proofs.«417276_j38173669327601_3_alg».proof.Proof.Gen.KernelIdeal.Points
import proofs.«417276_j38173669327601_3_alg».proof.Proof.Gen.KernelIdeal.Frame
import proofs.«417276_j38173669327601_3_alg».proof.Proof.Gen.ReferenceIdeal
import proofs.«417276_j38173669327601_3_alg».proof.Proof.Gen.Pre_finite_inputs
import proofs.«417276_j38173669327601_3_alg».proof.Proof.KernelArray
import proofs.«417276_j38173669327601_3_alg».proof.Proof.RefArray
import proofs.«417276_j38173669327601_3_alg».proof.Proof.FiniteInputs
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on finite arguments both programs end with the specification's array of the arguments. -/
theorem algebraic : Cert.algebraic_KernelIdeal_ReferenceIdeal := by
  intro m ρ m' ρ' hpre hagree
  refine ⟨fun c => Cert.Fusion.fused (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.Array.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, hW⟩ := Cert.Finite.reals_of_pre _ _ _ _ _ (hpre c)
  rw [Cert.ReferenceIdeal.ReadP.val_main_v32_eq, (hagree c).1, (hagree c).2.1, (hagree c).2.2.1, (hagree c).2.2.2.1, (hagree c).2.2.2.2]
  exact Cert.ReferenceIdeal.Array.result_eq _ _ _ _ _ h0 h1 h2 h3 hW

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
